-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S32x32 .f32) (main_arg3 : FVec F S32 .f32) (main_arg4 : FVec F S32x16 .f32) (main_arg5 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x32 : Shape := ⟨2, ![5000, 32]⟩
abbrev S1700000x32 : Shape := ⟨2, ![1700000, 32]⟩
abbrev S1x32 : Shape := ⟨2, ![1, 32]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩

abbrev nBuf : Space → Nat
  | .hbm => 87
  | .vmem => 11
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x32, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x32, .f32⟩
  | .hbm, ⟨59, _⟩ => ⟨S1700000x1, .f32⟩
  | .hbm, ⟨60, _⟩ => ⟨S1700000x32, .f32⟩
  | .hbm, ⟨61, _⟩ => ⟨S1700000x32, .f32⟩
  | .hbm, ⟨62, _⟩ => ⟨S_, .f32⟩
  | .hbm, ⟨63, _⟩ => ⟨S100000x32, .f32⟩
  | .hbm, ⟨64, _⟩ => ⟨S1700000x1, .i32⟩
  | .hbm, ⟨65, _⟩ => ⟨S100000x32, .f32⟩
  | .hbm, ⟨66, _⟩ => ⟨S1x32, .f32⟩
  | .hbm, ⟨67, _⟩ => ⟨S100000x16, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x16, .f32⟩
  | .hbm, ⟨77, _⟩ => ⟨S1700000x1, .f32⟩
  | .hbm, ⟨78, _⟩ => ⟨S1700000x16, .f32⟩
  | .hbm, ⟨79, _⟩ => ⟨S1700000x16, .f32⟩
  | .hbm, ⟨80, _⟩ => ⟨S_, .f32⟩
  | .hbm, ⟨81, _⟩ => ⟨S100000x16, .f32⟩
  | .hbm, ⟨82, _⟩ => ⟨S1700000x1, .i32⟩
  | .hbm, ⟨83, _⟩ => ⟨S100000x16, .f32⟩
  | .hbm, ⟨84, _⟩ => ⟨S1x16, .f32⟩
  | .hbm, ⟨85, _⟩ => ⟨S100000x16, .f32⟩
  | .hbm, ⟨86, _⟩ => ⟨S100000x16, .f32⟩
  | .local _ .vmem, ⟨0, _⟩ => ⟨S5000x32, .f32⟩
  | .local _ .vmem, ⟨1, _⟩ => ⟨S5000x32, .f32⟩
  | .local _ .vmem, ⟨2, _⟩ => ⟨S32x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S32x16, .f32⟩
  | .local _ .vmem, ⟨9, _⟩ => ⟨S5000x16, .f32⟩
  | .local _ .vmem, ⟨10, _⟩ => ⟨S5000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x32_S32x32_S5000x32_1_0_0_1_n_n_wf : DotDims.WF S5000x32 S32x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x16_S5000x16_1_0_0_1_n_n_wf : DotDims.WF S5000x32 S32x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 111
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x32, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x32, .f32⟩
  | .hbm, ⟨59, _⟩ => ⟨S1700000x1, .f32⟩
  | .hbm, ⟨60, _⟩ => ⟨S1700000x32, .f32⟩
  | .hbm, ⟨61, _⟩ => ⟨S1700000x32, .f32⟩
  | .hbm, ⟨62, _⟩ => ⟨S_, .f32⟩
  | .hbm, ⟨63, _⟩ => ⟨S100000x32, .f32⟩
  | .hbm, ⟨64, _⟩ => ⟨S1700000x1, .i32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S100000x32, .f32⟩
  | .hbm, ⟨69, _⟩ => ⟨S_, .f32⟩
  | .hbm, ⟨70, _⟩ => ⟨S100000x32, .f32⟩
  | .hbm, ⟨71, _⟩ => ⟨S100000x32, .f32⟩
  | .hbm, ⟨72, _⟩ => ⟨S100000x16, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x16, .f32⟩
  | .hbm, ⟨101, _⟩ => ⟨S1700000x1, .f32⟩
  | .hbm, ⟨102, _⟩ => ⟨S1700000x16, .f32⟩
  | .hbm, ⟨103, _⟩ => ⟨S1700000x16, .f32⟩
  | .hbm, ⟨104, _⟩ => ⟨S_, .f32⟩
  | .hbm, ⟨105, _⟩ => ⟨S100000x16, .f32⟩
  | .hbm, ⟨106, _⟩ => ⟨S1700000x1, .i32⟩
  | .hbm, ⟨107, _⟩ => ⟨S100000x16, .f32⟩
  | .hbm, ⟨108, _⟩ => ⟨S1x16, .f32⟩
  | .hbm, ⟨109, _⟩ => ⟨S100000x16, .f32⟩
  | .hbm, ⟨110, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  dot_S100000x32_S32x32_S100000x32_1_0_0_1_n_n_wf : DotDims.WF S100000x32 S32x32 S100000x32 [1] [0] [0] [1] [] []
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.Dots.lean ====
/-
  The four matrix products of this certificate are plain products.

  The kernel multiplies a tile of 5000 rows by a whole weight matrix (32×32 in the first layer, 32×16 in the second);
  the plain program multiplies all 100000 rows at once. Each of the four sets of dimension numbers contracts the left
  operand's column index with the right operand's row index, has no batch index, and lays the result out as
  (left row, right column): that is what `PlainDot` records, and what lets both products be read as the textbook sum.
-/
import proofs.«106686_j37847251813253_1_alg».proof.Proof.Gen.KernelIdeal
import proofs.«106686_j37847251813253_1_alg».proof.Proof.Gen.ReferenceIdeal
import proofs.«106686_j37847251813253_1_alg».proof.Proof.LibAffineRows

noncomputable section

namespace Cert.Dots

open Idealize.ShloMosaic Cert.Lib

/-- `dot_S5000x32_S32x32_S5000x32_1_0_0_1_n_n` contracts the left operand's columns with the right operand's rows and keeps the left rows and the right columns. -/
theorem tile1 : PlainDot Cert.KernelIdeal.dot_S5000x32_S32x32_S5000x32_1_0_0_1_n_n where
  rank := rfl
  size := rfl
  l0 i q := by
    unfold DotDims.lhsIdx
    rw [dif_neg (show ¬(0 : Fin Cert.KernelIdeal.S5000x32.rank) ∈ Cert.KernelIdeal.dot_S5000x32_S32x32_S5000x32_1_0_0_1_n_n.lhsBatch by decide),
      dif_pos (show (0 : Fin Cert.KernelIdeal.S5000x32.rank) ∈ Cert.KernelIdeal.dot_S5000x32_S32x32_S5000x32_1_0_0_1_n_n.lhsNonContracting by decide)]
    rfl
  l1 i q := Cert.KernelIdeal.dot_S5000x32_S32x32_S5000x32_1_0_0_1_n_n.lhsIdx_val_of_single rfl i q
  r0 i q := Cert.KernelIdeal.dot_S5000x32_S32x32_S5000x32_1_0_0_1_n_n.rhsIdx_val_of_single rfl i q
  r1 i q := by
    unfold DotDims.rhsIdx
    rw [dif_neg (show ¬(1 : Fin Cert.KernelIdeal.S32x32.rank) ∈ Cert.KernelIdeal.dot_S5000x32_S32x32_S5000x32_1_0_0_1_n_n.rhsBatch by decide),
      dif_pos (show (1 : Fin Cert.KernelIdeal.S32x32.rank) ∈ Cert.KernelIdeal.dot_S5000x32_S32x32_S5000x32_1_0_0_1_n_n.rhsNonContracting by decide)]
    rfl

/-- `dot_S5000x32_S32x16_S5000x16_1_0_0_1_n_n` contracts the left operand's columns with the right operand's rows and keeps the left rows and the right columns. -/
theorem tile2 : PlainDot Cert.KernelIdeal.dot_S5000x32_S32x16_S5000x16_1_0_0_1_n_n where
  rank := rfl
  size := rfl
  l0 i q := by
    unfold DotDims.lhsIdx
    rw [dif_neg (show ¬(0 : Fin Cert.KernelIdeal.S5000x32.rank) ∈ Cert.KernelIdeal.dot_S5000x32_S32x16_S5000x16_1_0_0_1_n_n.lhsBatch by decide),
      dif_pos (show (0 : Fin Cert.KernelIdeal.S5000x32.rank) ∈ Cert.KernelIdeal.dot_S5000x32_S32x16_S5000x16_1_0_0_1_n_n.lhsNonContracting by decide)]
    rfl
  l1 i q := Cert.KernelIdeal.dot_S5000x32_S32x16_S5000x16_1_0_0_1_n_n.lhsIdx_val_of_single rfl i q
  r0 i q := Cert.KernelIdeal.dot_S5000x32_S32x16_S5000x16_1_0_0_1_n_n.rhsIdx_val_of_single rfl i q
  r1 i q := by
    unfold DotDims.rhsIdx
    rw [dif_neg (show ¬(1 : Fin Cert.KernelIdeal.S32x16.rank) ∈ Cert.KernelIdeal.dot_S5000x32_S32x16_S5000x16_1_0_0_1_n_n.rhsBatch by decide),
      dif_pos (show (1 : Fin Cert.KernelIdeal.S32x16.rank) ∈ Cert.KernelIdeal.dot_S5000x32_S32x16_S5000x16_1_0_0_1_n_n.rhsNonContracting by decide)]
    rfl

/-- `dot_S100000x32_S32x32_S100000x32_1_0_0_1_n_n` contracts the left operand's columns with the right operand's rows and keeps the left rows and the right columns. -/
theorem whole1 : PlainDot Cert.ReferenceIdeal.dot_S100000x32_S32x32_S100000x32_1_0_0_1_n_n where
  rank := rfl
  size := rfl
  l0 i q := by
    unfold DotDims.lhsIdx
    rw [dif_neg (show ¬(0 : Fin Cert.ReferenceIdeal.S100000x32.rank) ∈ Cert.ReferenceIdeal.dot_S100000x32_S32x32_S100000x32_1_0_0_1_n_n.lhsBatch by decide),
      dif_pos (show (0 : Fin Cert.ReferenceIdeal.S100000x32.rank) ∈ Cert.ReferenceIdeal.dot_S100000x32_S32x32_S100000x32_1_0_0_1_n_n.lhsNonContracting by decide)]
    rfl
  l1 i q := Cert.ReferenceIdeal.dot_S100000x32_S32x32_S100000x32_1_0_0_1_n_n.lhsIdx_val_of_single rfl i q
  r0 i q := Cert.ReferenceIdeal.dot_S100000x32_S32x32_S100000x32_1_0_0_1_n_n.rhsIdx_val_of_single rfl i q
  r1 i q := by
    unfold DotDims.rhsIdx
    rw [dif_neg (show ¬(1 : Fin Cert.ReferenceIdeal.S32x32.rank) ∈ Cert.ReferenceIdeal.dot_S100000x32_S32x32_S100000x32_1_0_0_1_n_n.rhsBatch by decide),
      dif_pos (show (1 : Fin Cert.ReferenceIdeal.S32x32.rank) ∈ Cert.ReferenceIdeal.dot_S100000x32_S32x32_S100000x32_1_0_0_1_n_n.rhsNonContracting by decide)]
    rfl

/-- `dot_S100000x32_S32x16_S100000x16_1_0_0_1_n_n` contracts the left operand's columns with the right operand's rows and keeps the left rows and the right columns. -/
theorem whole2 : PlainDot Cert.ReferenceIdeal.dot_S100000x32_S32x16_S100000x16_1_0_0_1_n_n where
  rank := rfl
  size := rfl
  l0 i q := by
    unfold DotDims.lhsIdx
    rw [dif_neg (show ¬(0 : Fin Cert.ReferenceIdeal.S100000x32.rank) ∈ Cert.ReferenceIdeal.dot_S100000x32_S32x16_S100000x16_1_0_0_1_n_n.lhsBatch by decide),
      dif_pos (show (0 : Fin Cert.ReferenceIdeal.S100000x32.rank) ∈ Cert.ReferenceIdeal.dot_S100000x32_S32x16_S100000x16_1_0_0_1_n_n.lhsNonContracting by decide)]
    rfl
  l1 i q := Cert.ReferenceIdeal.dot_S100000x32_S32x16_S100000x16_1_0_0_1_n_n.lhsIdx_val_of_single rfl i q
  r0 i q := Cert.ReferenceIdeal.dot_S100000x32_S32x16_S100000x16_1_0_0_1_n_n.rhsIdx_val_of_single rfl i q
  r1 i q := by
    unfold DotDims.rhsIdx
    rw [dif_neg (show ¬(1 : Fin Cert.ReferenceIdeal.S32x16.rank) ∈ Cert.ReferenceIdeal.dot_S100000x32_S32x16_S100000x16_1_0_0_1_n_n.rhsBatch by decide),
      dif_pos (show (1 : Fin Cert.ReferenceIdeal.S32x16.rank) ∈ Cert.ReferenceIdeal.dot_S100000x32_S32x16_S100000x16_1_0_0_1_n_n.rhsNonContracting by decide)]
    rfl

end Cert.Dots

end
-- ==== Proof.Region0Value.lean ====
/-
  What the first pallas_call leaves in its output array: the whole product x · W1.

  The call runs over 20 grid points. At point t it fetches rows 5000·t … 5000·t + 4999 of its first array (all 32
  columns) and the whole 32×32 weight matrix, multiplies the row tile by the matrix, and writes the 5000×32 result back
  to the same rows of the output array. Over the extended reals entry (r, q) of the tile's product is the sum over k of
  tile (r, k) · W (k, q), which is entry (5000·t + r, q) of the product of the whole arrays (`tile_rows`). So what
  every point writes back is its block of ONE array, the whole product (`flushed_eq`); the 20 blocks tile the 100000
  rows (`cover`), hence the output array ends holding the whole product (`value`). Everything is stated at an arbitrary
  content `V` of the buffers when the call is entered.
-/
import proofs.«106686_j37847251813253_1_alg».proof.Proof.Gen.KernelIdeal.Frame
import proofs.«106686_j37847251813253_1_alg».proof.Proof.Dots
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem

/-- The zero offsets of a whole-block access, as the constant function. -/
theorem hz : (![0, 0] : Fin 2 → Nat) = fun _ => 0 := funext fun a => by fin_cases a <;> rfl

/-- ROW BY ROW: if row r of the tile `xb` is row `n r` of `X` and the weight block is `W`, entry (p, q) of what the body
    stores is entry (n p, q) of the whole product `X · W`: both are the sum over k of X (n p, k) · W (k, q). -/
theorem tile_rows (xb : Vec Ideal S5000x32 .f32) (wb : Vec Ideal S32x32 .f32)
    (X : FVec Ideal Cert.ReferenceIdeal.S100000x32 .f32) (W : FVec Ideal Cert.ReferenceIdeal.S32x32 .f32)
    (n : Fin 5000 → Fin 100000) (hx : ∀ r k, xb (ix2 r k) = X (ix2 (n r) k)) (hw : ∀ k q, wb (ix2 k q) = W (ix2 k q))
    (p : Fin 5000) (q : Fin 32) :
    k0_pay1 xb wb (ix2 p q)
      = Host.dotGeneral Cert.ReferenceIdeal.dot_S100000x32_S32x32_S100000x32_1_0_0_1_n_n none X W (ix2 (n p) q) := by
  refine (Cert.Lib.matmul_zero_apply Cert.Dots.tile1 xb wb Facts₀.bitsLt_bf16_f32 p q).trans ?_
  refine Eq.trans ?_ (Cert.Lib.dotGeneral_apply Cert.Dots.whole1 X W (n p) q).symm
  exact Finset.sum_congr rfl fun k _ => by rw [hx, hw]

/-- The printed index maps, decided over the 20 points: the row tile and the output block move with the point, the
    weight block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The whole product of the call's two input arrays as it finds them. -/
def whole (c : Dev nD) : FVec Ideal Cert.ReferenceIdeal.S100000x32 .f32 :=
  Host.dotGeneral (F := Ideal) (φ₁ := .f32) (φ₂ := .f32) Cert.ReferenceIdeal.dot_S100000x32_S32x32_S100000x32_1_0_0_1_n_n none (V c main_arg0) (V c main_arg2)

/-- The row of the arrays that row r of point t's blocks is. -/
def rowAt (t : Fin cfg0.N) (r : Fin 5000) : Fin 100000 :=
  ⟨t.val * 5000 + r.val, by have := t.isLt; have h : cfg0.N = 20 := N_0; have := r.isLt; omega⟩

/-- Row r of the tile fetched at point t is row 5000·t + r of the first array. -/
theorem tile_read (c : Dev nD) (t : Fin cfg0.N) (r : Fin 5000) (k : Fin 32) :
    iblk0 V c 0 t (ix2 r k) = V c main_arg0 (ix2 (rowAt t r) k) := by
  obtain ⟨e0, e1, -⟩ := idx_facts t
  show V c main_arg0 (((cfg0.win 0).blk t).view.emb (ix2 r k)) = V c main_arg0 (ix2 (rowAt t r) k)
  refine congrArg (V c main_arg0) (funext fun a => Fin.ext ?_)
  match a with
  | ⟨0, _⟩ => show win0_0.index t (0 : Fin 2) * 5000 + 1 * r.val = t.val * 5000 + r.val; omega
  | ⟨1, _⟩ => show win0_0.index t (1 : Fin 2) * 32 + 1 * k.val = k.val; omega

/-- The weight block fetched at any point is the whole weight matrix. -/
theorem weight_read (c : Dev nD) (t : Fin cfg0.N) (k : Fin 32) (q : Fin 32) :
    iblk0 V c 1 t (ix2 k q) = V c main_arg2 (ix2 k q) := by
  obtain ⟨-, -, e2, e3, -⟩ := idx_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 32 + 1 * k.val = k.val; omega
  | ⟨1, _⟩ => show win0_1.index t (1 : Fin 2) * 32 + 1 * q.val = q.val; omega

/-- WHAT POINT t WRITES BACK is block t of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S5000x32) hz, View.ld_unit_zero (S := S32x32) hz]
  funext j
  obtain ⟨p, q, rfl⟩ : ∃ (p : Fin 5000) (q : Fin 32), j = ix2 p q := ⟨j 0, j 1, eq_ix2 j⟩
  obtain ⟨-, -, -, -, e4, e5⟩ := idx_facts t
  show k0_pay1 (iblk0 V c 0 t) (iblk0 V c 1 t) (ix2 p q) = whole V c (((cfg0.win 2).blk t).view.emb (ix2 p q))
  refine (tile_rows (iblk0 V c 0 t) (iblk0 V c 1 t) (V c main_arg0) (V c main_arg2) (rowAt t)
    (tile_read V c t) (weight_read V c t) p q).trans ?_
  unfold whole
  refine congrArg (Host.dotGeneral (F := Ideal) (φ₁ := .f32) (φ₂ := .f32) Cert.ReferenceIdeal.dot_S100000x32_S32x32_S100000x32_1_0_0_1_n_n none (V c main_arg0) (V c main_arg2))
    (funext fun a => Fin.ext ?_)
  match a with
  | ⟨0, _⟩ => show t.val * 5000 + p.val = win0_2.index t (0 : Fin 2) * 5000 + 1 * p.val; omega
  | ⟨1, _⟩ => show q.val = win0_2.index t (1 : Fin 2) * 32 + 1 * q.val; omega

/-- An index of the output array is in point t's block iff each coordinate is in the block's range on its axis. -/
theorem mem_blk (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v32).slice (win0_2.rect t)).set ↔ _
  rw [View.set_slice_whole, Rect.mem_set_unit]
  exact Iff.rfl

/-- The 20 blocks of 5000 rows tile the 100000 rows: row r is in the block of point r / 5000. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  let t : Fin cfg0.N := ⟨(i 0).val / 5000, by omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- THE OUTPUT ARRAY after the call: the whole product of the two input arrays as the call found them. -/
theorem value (c : Dev nD) : (dat0 V c).arrAt 2 cfg0.N = whole V c :=
  (dat0 V c).arrAt_eq_of_cover 2 (whole V c) (fun t _ => flushed_eq V c t) cover

end Cert.KernelIdeal.Region0

end
-- ==== Proof.Region1Value.lean ====
/-
  What the second pallas_call leaves in its output array: the whole product relu(agg + b1) · W2.

  The call runs over 20 grid points. At point t it fetches rows 5000·t … 5000·t + 4999 of the aggregated features
  (32 columns), the bias kept as a 1×32 block and the whole 32×16 weight matrix; it adds the bias row to every row of
  the tile, takes the maximum with zero, multiplies by the weight matrix and writes the 5000×16 result back to the same
  rows of the output array. Over the extended reals entry (r, q) of the tile's result is the sum over k of
  max (tile (r, k) + bias k, 0) · W (k, q): entry (5000·t + r, q) of the product of the WHOLE array
  max (agg + bias broadcast over the rows, 0) with W (`tile_rows`). So every point writes back its block of that one
  array (`flushed_eq`), the 20 blocks tile the 100000 rows (`cover`), and the output array ends holding it (`value`).
  Everything is stated at an arbitrary content `V` of the buffers when the call is entered.
-/
import proofs.«106686_j37847251813253_1_alg».proof.Proof.Gen.KernelIdeal.Frame
import proofs.«106686_j37847251813253_1_alg».proof.Proof.Dots
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem

/-- The zero offsets of a whole-block access, as the constant function. -/
theorem hz : (![0, 0] : Fin 2 → Nat) = fun _ => 0 := funext fun a => by fin_cases a <;> rfl

/-- The hidden layer as one whole array: the aggregated features plus the bias row broadcast over all rows, cut off
    below at zero. -/
def hidden (X : FVec Ideal Cert.ReferenceIdeal.S100000x32 .f32) (B : FVec Ideal Cert.ReferenceIdeal.S1x32 .f32) :
    FVec Ideal Cert.ReferenceIdeal.S100000x32 .f32 :=
  maximumf (addf X (broadcastInDim Cert.ReferenceIdeal.S100000x32 ![0, 1] Cert.ReferenceIdeal.Facts₀.bcast_S1x32_S100000x32_0_1 B))
    (broadcastInDim Cert.ReferenceIdeal.S100000x32 ![] Cert.ReferenceIdeal.Facts₀.bcast_S_S100000x32 (constant Cert.ReferenceIdeal.S_ .f32 0x00000000#32))

/-- The hidden layer at (n, k): max (X (n, k) + B (0, k), 0). -/
theorem hidden_apply (X : FVec Ideal Cert.ReferenceIdeal.S100000x32 .f32) (B : FVec Ideal Cert.ReferenceIdeal.S1x32 .f32)
    (n : Fin 100000) (k : Fin 32) :
    hidden X B (ix2 n k) = max (X (ix2 n k) + B (ix2 (0 : Fin 1) k)) (Ideal.ofBits .f32 0x00000000#32) := by
  unfold hidden
  rw [maximumf_apply, addf_apply,
    broadcastInDim_apply _ Cert.ReferenceIdeal.Facts₀.bcast_S1x32_S100000x32_0_1 B (ix2 n k) (ix2 (0 : Fin 1) k) (fun a => by
      match a with
      | ⟨0, _⟩ => show (0 : ℕ) = if (1 : ℕ) = 1 then 0 else n.val; rw [if_pos rfl]
      | ⟨1, _⟩ => show k.val = if (32 : ℕ) = 1 then 0 else k.val; rw [if_neg (by decide)]),
    broadcastInDim_apply _ Cert.ReferenceIdeal.Facts₀.bcast_S_S100000x32 (constant Cert.ReferenceIdeal.S_ .f32 0x00000000#32)
      (ix2 n k) (fun a => a.elim0) (fun a => a.elim0)]
  rfl

/-- ROW BY ROW: if row r of the tile `xb` is row `n r` of `X`, the bias block is `B` and the weight block is `W`, entry
    (p, q) of what the body stores is entry (n p, q) of the whole product `hidden X B · W`. -/
theorem tile_rows (xb : Vec Ideal S5000x32 .f32) (bb : Vec Ideal S1x32 .f32) (wb : Vec Ideal S32x16 .f32)
    (X : FVec Ideal Cert.ReferenceIdeal.S100000x32 .f32) (B : FVec Ideal Cert.ReferenceIdeal.S1x32 .f32)
    (W : FVec Ideal Cert.ReferenceIdeal.S32x16 .f32)
    (n : Fin 5000 → Fin 100000) (hx : ∀ r k, xb (ix2 r k) = X (ix2 (n r) k))
    (hb : ∀ k : Fin 32, bb (ix2 (0 : Fin 1) k) = B (ix2 (0 : Fin 1) k)) (hw : ∀ k q, wb (ix2 k q) = W (ix2 k q))
    (p : Fin 5000) (q : Fin 16) :
    k1_pay1 xb bb wb (ix2 p q)
      = Host.dotGeneral Cert.ReferenceIdeal.dot_S100000x32_S32x16_S100000x16_1_0_0_1_n_n none (hidden X B) W (ix2 (n p) q) := by
  refine (Cert.Lib.matmul_zero_apply Cert.Dots.tile2
    (maximumf (addf (shapeCast S5000x32 xb Facts₀.shapeCasts_S5000x32_S5000x32)
        (broadcastTo S5000x32 (shapeCast S1x32 bb Facts₀.shapeCasts_S1x32_S1x32) Facts₀.broadcasts_S1x32_S5000x32))
      (broadcast S5000x32 (Scalar.ofBits .f32 0x00000000#32)))
    wb Facts₀.bitsLt_bf16_f32 p q).trans ?_
  refine Eq.trans ?_ (Cert.Lib.dotGeneral_apply Cert.Dots.whole2 (hidden X B) W (n p) q).symm
  refine Finset.sum_congr rfl fun k _ => ?_
  rw [hw, hidden_apply, maximumf_apply, addf_apply, shapeCast_self, broadcastTo_1b_ab_apply, shapeCast_self, hx, hb]
  rfl

/-- The printed index maps, decided over the 20 points: the row tile and the output block move with the point, the bias
    block and the weight block stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The whole product of the hidden layer (from the call's first two arrays as it finds them) with its third. -/
def whole (c : Dev nD) : FVec Ideal Cert.ReferenceIdeal.S100000x16 .f32 :=
  Host.dotGeneral (F := Ideal) (φ₁ := .f32) (φ₂ := .f32) Cert.ReferenceIdeal.dot_S100000x32_S32x16_S100000x16_1_0_0_1_n_n none
    (hidden (V c main_v45) (V c main_v46)) (V c main_arg4)

/-- The row of the arrays that row r of point t's blocks is. -/
def rowAt (t : Fin cfg1.N) (r : Fin 5000) : Fin 100000 :=
  ⟨t.val * 5000 + r.val, by have := t.isLt; have h : cfg1.N = 20 := N_1; have := r.isLt; omega⟩

/-- Row r of the tile fetched at point t is row 5000·t + r of the aggregated features. -/
theorem tile_read (c : Dev nD) (t : Fin cfg1.N) (r : Fin 5000) (k : Fin 32) :
    iblk1 V c 0 t (ix2 r k) = V c main_v45 (ix2 (rowAt t r) k) := by
  obtain ⟨e0, e1, -⟩ := idx_facts t
  show V c main_v45 (((cfg1.win 0).blk t).view.emb (ix2 r k)) = V c main_v45 (ix2 (rowAt t r) k)
  refine congrArg (V c main_v45) (funext fun a => Fin.ext ?_)
  match a with
  | ⟨0, _⟩ => show win1_0.index t (0 : Fin 2) * 5000 + 1 * r.val = t.val * 5000 + r.val; omega
  | ⟨1, _⟩ => show win1_0.index t (1 : Fin 2) * 32 + 1 * k.val = k.val; omega

/-- The bias block fetched at any point is the whole 1×32 bias array. -/
theorem bias_read (c : Dev nD) (t : Fin cfg1.N) (k : Fin 32) :
    iblk1 V c 1 t (ix2 (0 : Fin 1) k) = V c main_v46 (ix2 (0 : Fin 1) k) := by
  obtain ⟨-, -, e2, e3, -⟩ := idx_facts t
  show V c main_v46 (((cfg1.win 1).blk t).view.emb (ix2 (0 : Fin 1) k)) = V c main_v46 (ix2 (0 : Fin 1) k)
  refine congrArg (V c main_v46) (funext fun a => Fin.ext ?_)
  match a with
  | ⟨0, _⟩ => show win1_1.index t (0 : Fin 2) * 1 + 1 * 0 = 0; omega
  | ⟨1, _⟩ => show win1_1.index t (1 : Fin 2) * 32 + 1 * k.val = k.val; omega

/-- The weight block fetched at any point is the whole weight matrix. -/
theorem weight_read (c : Dev nD) (t : Fin cfg1.N) (k : Fin 32) (q : Fin 16) :
    iblk1 V c 2 t (ix2 k q) = V c main_arg4 (ix2 k q) := by
  obtain ⟨-, -, -, -, e4, e5, -⟩ := idx_facts t
  show V c main_arg4 (((cfg1.win 2).blk t).view.emb (ix2 k q)) = V c main_arg4 (ix2 k q)
  refine congrArg (V c main_arg4) (funext fun a => Fin.ext ?_)
  match a with
  | ⟨0, _⟩ => show win1_2.index t (0 : Fin 2) * 32 + 1 * k.val = k.val; omega
  | ⟨1, _⟩ => show win1_2.index t (1 : Fin 2) * 16 + 1 * q.val = q.val; omega

/-- WHAT POINT t WRITES BACK is block t of the whole product. -/
theorem flushed_eq (c : Dev nD) (t : Fin cfg1.N) :
    (dat1 V c).flushed 3 t = ((cfg1.win 3).blk t).view.read (Elt Ideal) (whole V c) := by
  show (cfg1.win 3).cut (grid1.coords t) ((dat1 V c).after 3 t) = _
  rw [after1_3]
  unfold out1_3
  rw [View.canon_unit_zero hz]
  simp only [View.ld_unit_zero (S := S5000x32) hz, View.ld_unit_zero (S := S1x32) hz, View.ld_unit_zero (S := S32x16) hz]
  funext j
  obtain ⟨p, q, rfl⟩ : ∃ (p : Fin 5000) (q : Fin 16), j = ix2 p q := ⟨j 0, j 1, eq_ix2 j⟩
  obtain ⟨-, -, -, -, -, -, e6, e7⟩ := idx_facts t
  show k1_pay1 (iblk1 V c 0 t) (iblk1 V c 1 t) (iblk1 V c 2 t) (ix2 p q) = whole V c (((cfg1.win 3).blk t).view.emb (ix2 p q))
  refine (tile_rows (iblk1 V c 0 t) (iblk1 V c 1 t) (iblk1 V c 2 t) (V c main_v45) (V c main_v46) (V c main_arg4) (rowAt t)
    (tile_read V c t) (bias_read V c t) (weight_read V c t) p q).trans ?_
  unfold whole
  refine congrArg (Host.dotGeneral (F := Ideal) (φ₁ := .f32) (φ₂ := .f32) Cert.ReferenceIdeal.dot_S100000x32_S32x16_S100000x16_1_0_0_1_n_n none
    (hidden (V c main_v45) (V c main_v46)) (V c main_arg4)) (funext fun a => Fin.ext ?_)
  match a with
  | ⟨0, _⟩ => show t.val * 5000 + p.val = win1_3.index t (0 : Fin 2) * 5000 + 1 * p.val; omega
  | ⟨1, _⟩ => show q.val = win1_3.index t (1 : Fin 2) * 16 + 1 * q.val; omega

/-- An index of the output array is in point t's block iff each coordinate is in the block's range on its axis. -/
theorem mem_blk (t : Fin cfg1.N) (i : S100000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v47).slice (win1_3.rect t)).set ↔ _
  rw [View.set_slice_whole, Rect.mem_set_unit]
  exact Iff.rfl

/-- The 20 blocks of 5000 rows tile the 100000 rows: row r is in the block of point r / 5000. -/
theorem cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 20 := N_1
  let t : Fin cfg1.N := ⟨(i 0).val / 5000, by omega⟩
  obtain ⟨-, -, -, -, -, -, e6, e7⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 16 ≤ (i 1).val ∧ (i 1).val < win1_3.index t (1 : Fin 2) * 16 + 16; omega

/-- THE OUTPUT ARRAY after the call: the whole product of the hidden layer with the weight matrix, from the arrays as
    the call found them. -/
theorem value (c : Dev nD) : (dat1 V c).arrAt 3 cfg1.N = whole V c :=
  (dat1 V c).arrAt_eq_of_cover 3 (whole V c) (fun t _ => flushed_eq V c t) cover

end Cert.KernelIdeal.Region1

end
-- ==== Proof.FoldHost.lean ====
/-
  The host side of the kernel's program before its first pallas_call, value by value.

  Both programs prepare the graph in the same way: the edge list is extended by one self-loop per node (source and
  destination index vectors of length 1700000), every node's degree is the number of edges that end in it, its weight is
  the inverse square root of the degree where the degree is positive and zero elsewhere, and every edge's coefficient is
  the product of the weights of its two ends (a negative index is first wrapped round by the number of nodes). The
  kernel's program computes these three vectors once, before its first pallas_call, and nothing later overwrites them,
  so the buffers hold them at every later boundary. Each is, operation by operation, the value the plain program's
  corresponding operation writes, as a function of the edge input alone. The float arguments are never written either.
  All of this holds at any float family.
-/
import proofs.«106686_j37847251813253_1_alg».proof.Proof.Gen.KernelIdeal.Frame
import proofs.«106686_j37847251813253_1_alg».proof.Proof.RefReadP
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

/-- Reads a boundary's contents at one buffer through the host operations before it: one simplification pass over the
    operations' result lemmas, then the same lemmas by rewriting for what that pass cannot reach (the operands inside a
    concatenate's list of pieces). -/
macro "read_fold" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

variable {F : FTy → Type} [FloatOps F]
variable (m : (ℓ : Loc nD τ sig) → Buf (Elt F) ℓ) (ρ : Dev nD → PrngReg)

/-- The edge input as launched. -/
abbrev edges (c : Dev nD) := m ((c : Thread nD τ).loc main_arg1)

/-! ## At the first pallas_call's entry -/

/-- The source indices with the self-loops appended. -/
theorem W3_src (c : Dev nD) :
    W3 m ρ c (Proc.devRef .tc main_v3) = Cert.ReferenceIdeal.ReadP.val_main_v3 (F := F) (edges m c) := by
  dsimp only [W3, W2, W1, W0, hostOps0, hostOps0_1, hostOps0_2]
  after_results
  rfl

/-- The destination indices with the self-loops appended. -/
theorem W3_dst (c : Dev nD) :
    W3 m ρ c (Proc.devRef .tc main_v6) = Cert.ReferenceIdeal.ReadP.val_main_v6 (F := F) (edges m c) := by
  dsimp only [W3, W2, W1, W0, hostOps0, hostOps0_1, hostOps0_2]
  after_results
  rfl

/-- Every edge's coefficient: the product of the inverse square roots of its two ends' degrees. -/
theorem W3_coef (c : Dev nD) :
    W3 m ρ c (Proc.devRef .tc main_v31) = Cert.ReferenceIdeal.ReadP.val_main_v32 (F := F) (edges m c) := by
  dsimp only [W3, W2, W1, W0, hostOps0, hostOps0_1, hostOps0_2]
  read_fold
  rfl

theorem W3_arg0 (c : Dev nD) : W3 m ρ c (Proc.devRef .tc main_arg0) = m ((c : Thread nD τ).loc main_arg0) := by
  dsimp only [W3, W2, W1, W0, hostOps0, hostOps0_1, hostOps0_2]
  after_results
theorem W3_arg2 (c : Dev nD) : W3 m ρ c (Proc.devRef .tc main_arg2) = m ((c : Thread nD τ).loc main_arg2) := by
  dsimp only [W3, W2, W1, W0, hostOps0, hostOps0_1, hostOps0_2]
  after_results
theorem W3_arg3 (c : Dev nD) : W3 m ρ c (Proc.devRef .tc main_arg3) = m ((c : Thread nD τ).loc main_arg3) := by
  dsimp only [W3, W2, W1, W0, hostOps0, hostOps0_1, hostOps0_2]
  after_results
theorem W3_arg4 (c : Dev nD) : W3 m ρ c (Proc.devRef .tc main_arg4) = m ((c : Thread nD τ).loc main_arg4) := by
  dsimp only [W3, W2, W1, W0, hostOps0, hostOps0_1, hostOps0_2]
  after_results
theorem W3_arg5 (c : Dev nD) : W3 m ρ c (Proc.devRef .tc main_arg5) = m ((c : Thread nD τ).loc main_arg5) := by
  dsimp only [W3, W2, W1, W0, hostOps0, hostOps0_1, hostOps0_2]
  after_results

/-! ## At the first pallas_call's exit: it writes none of them -/

theorem W4_src (c : Dev nD) :
    W4 m ρ c (Proc.devRef .tc main_v3) = Cert.ReferenceIdeal.ReadP.val_main_v3 (F := F) (edges m c) :=
  (W4_of_ne m ρ c main_v3 (by decide)).trans (W3_src m ρ c)
theorem W4_dst (c : Dev nD) :
    W4 m ρ c (Proc.devRef .tc main_v6) = Cert.ReferenceIdeal.ReadP.val_main_v6 (F := F) (edges m c) :=
  (W4_of_ne m ρ c main_v6 (by decide)).trans (W3_dst m ρ c)
theorem W4_coef (c : Dev nD) :
    W4 m ρ c (Proc.devRef .tc main_v31) = Cert.ReferenceIdeal.ReadP.val_main_v32 (F := F) (edges m c) :=
  (W4_of_ne m ρ c main_v31 (by decide)).trans (W3_coef m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## At the second pallas_call's entry: the host operations between the calls write none of them -/

theorem W5_src (c : Dev nD) :
    W5 m ρ c (Proc.devRef .tc main_v3) = Cert.ReferenceIdeal.ReadP.val_main_v3 (F := F) (edges m c) := by
  refine Eq.trans ?_ (W4_src m ρ c)
  dsimp only [W5, hostOps1]
  after_results
theorem W5_dst (c : Dev nD) :
    W5 m ρ c (Proc.devRef .tc main_v6) = Cert.ReferenceIdeal.ReadP.val_main_v6 (F := F) (edges m c) := by
  refine Eq.trans ?_ (W4_dst m ρ c)
  dsimp only [W5, hostOps1]
  after_results
theorem W5_coef (c : Dev nD) :
    W5 m ρ c (Proc.devRef .tc main_v31) = Cert.ReferenceIdeal.ReadP.val_main_v32 (F := F) (edges m c) := by
  refine Eq.trans ?_ (W4_coef m ρ c)
  dsimp only [W5, hostOps1]
  after_results
theorem W5_arg4 (c : Dev nD) : W5 m ρ c (Proc.devRef .tc main_arg4) = m ((c : Thread nD τ).loc main_arg4) := by
  refine Eq.trans ?_ (W4_arg4 m ρ c)
  dsimp only [W5, hostOps1]
  after_results
theorem W5_arg5 (c : Dev nD) : W5 m ρ c (Proc.devRef .tc main_arg5) = m ((c : Thread nD τ).loc main_arg5) := by
  refine Eq.trans ?_ (W4_arg5 m ρ c)
  dsimp only [W5, hostOps1]
  after_results

/-! ## At the second pallas_call's exit -/

theorem W6_src (c : Dev nD) :
    W6 m ρ c (Proc.devRef .tc main_v3) = Cert.ReferenceIdeal.ReadP.val_main_v3 (F := F) (edges m c) :=
  (W6_of_ne m ρ c main_v3 (by decide)).trans (W5_src m ρ c)
theorem W6_dst (c : Dev nD) :
    W6 m ρ c (Proc.devRef .tc main_v6) = Cert.ReferenceIdeal.ReadP.val_main_v6 (F := F) (edges m c) :=
  (W6_of_ne m ρ c main_v6 (by decide)).trans (W5_dst m ρ c)
theorem W6_coef (c : Dev nD) :
    W6 m ρ c (Proc.devRef .tc main_v31) = Cert.ReferenceIdeal.ReadP.val_main_v32 (F := F) (edges m c) :=
  (W6_of_ne m ρ c main_v31 (by decide)).trans (W5_coef m ρ c)
theorem W6_arg5 (c : Dev nD) : W6 m ρ c (Proc.devRef .tc main_arg5) = m ((c : Thread nD τ).loc main_arg5) :=
  (W6_of_ne m ρ c main_arg5 (by decide)).trans (W5_arg5 m ρ c)

/-- The plain program computes the edge coefficients a second time for its second layer: the same operations of the
    same input, hence the same vector. -/
theorem coef_again (x1 : (⟨Cert.ReferenceIdeal.S2x1600000, .i32⟩ : BufTy).Contents (Elt F)) :
    Cert.ReferenceIdeal.ReadP.val_main_v65 (F := F) x1 = Cert.ReferenceIdeal.ReadP.val_main_v32 (F := F) x1 := rfl

end Cert.KernelIdeal.Fold

end
-- ==== Proof.FoldValue.lean ====
/-
  The kernel's program read from its first pallas_call to its result, over the extended reals.

  At the first call's exit its output array holds x · W1 (the call's value, at the launch contents of x and W1). The
  host operations between the calls gather its rows along the edges, scale each by the edge's coefficient and add the
  rows up per destination node: the first layer's aggregate, operation for operation the plain program's. The bias
  vector is reshaped to one row, which is the same row the plain program gets by broadcasting. So the second call's
  output array holds relu(aggregate + b1) · W2, the plain program's second product; the operations after it aggregate
  again and add b2, as the plain program does. Hence the result buffer ends at the plain program's result as a
  function of the six inputs (`W7_out`), and the run of the kernel's program can be stated with that value (`run`).
-/
import proofs.«106686_j37847251813253_1_alg».proof.Proof.KernelRun
import proofs.«106686_j37847251813253_1_alg».proof.Proof.Region0Value
import proofs.«106686_j37847251813253_1_alg».proof.Proof.Region1Value
import proofs.«106686_j37847251813253_1_alg».proof.Proof.FoldHost

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx

/-- A vector of 32 entries reshaped to one row is the row that broadcasting it along a new leading axis gives. -/
theorem reshape_row {α : Type} (b : Cert.ReferenceIdeal.S32.Idx → α)
    (h : Cert.ReferenceIdeal.S32.ShapeCasts Cert.ReferenceIdeal.S1x32)
    (h' : Cert.ReferenceIdeal.S32.BroadcastsInDim Cert.ReferenceIdeal.S1x32 (![1] : Fin 1 → Fin 2)) :
    shapeCast Cert.ReferenceIdeal.S1x32 b h = broadcastInDim Cert.ReferenceIdeal.S1x32 ![1] h' b := by
  funext i
  obtain ⟨z, k, rfl⟩ : ∃ (z : Fin 1) (k : Fin 32), i = ix2 z k := ⟨i 0, i 1, eq_ix2 i⟩
  rw [shapeCast_apply b h (ix2 z k) (ix1 k) (by
      rewrite [Shape.rowMajor_val_two, Shape.rowMajor_val_one]
      have hz : z.val = 0 := by have := z.isLt; omega
      show k.val = z.val * 32 + k.val; omega),
    broadcastInDim_apply _ h' b (ix2 z k) (ix1 k) (fun a => by
      match a with
      | ⟨0, _⟩ => show k.val = if (32 : ℕ) = 1 then 0 else k.val; rw [if_neg (by decide)])]

variable (m : (ℓ : Loc nD τ sig) → Buf (Elt Ideal) ℓ) (ρ : Dev nD → PrngReg)

/-- The six inputs as launched. -/
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)

/-- After the first pallas_call its output array holds x · W1. -/
theorem W4_lin1 (c : Dev nD) :
    W4 m ρ c (Proc.devRef .tc main_v32) = Cert.ReferenceIdeal.ReadP.val_main_v17 (F := Ideal) (x0 m c) (x2 m c) := by
  refine (W4_arr m ρ c 2).trans ((Cert.KernelIdeal.Region0.value (V3 m ρ) c).trans ?_)
  unfold Cert.KernelIdeal.Region0.whole Cert.ReferenceIdeal.ReadP.val_main_v17
  dsimp only [V3]
  rw [W3_arg0 m ρ c, W3_arg2 m ρ c]

/-- At the second pallas_call's entry the first layer's aggregate is in place: gather along the edges, scale, add up per
    destination. -/
theorem W5_agg1 (c : Dev nD) :
    W5 m ρ c (Proc.devRef .tc main_v45) = Cert.ReferenceIdeal.ReadP.val_main_v45 (F := Ideal) (x0 m c) (x1 m c) (x2 m c) := by
  dsimp only [W5, hostOps1]
  read_fold
  rw [W4_lin1 m ρ c, W4_src m ρ c, W4_dst m ρ c, W4_coef m ρ c]
  rfl

/-- The bias as one row. -/
theorem W5_bias (c : Dev nD) :
    W5 m ρ c (Proc.devRef .tc main_v46)
      = broadcastInDim Cert.ReferenceIdeal.S1x32 ![1] Cert.ReferenceIdeal.Facts₀.bcast_S32_S1x32_1 (x3 m c) := by
  dsimp only [W5, hostOps1]
  read_fold
  rw [W4_arg3 m ρ c]
  exact reshape_row (x3 m c) _ _

/-- After the second pallas_call its output array holds relu(aggregate + b1) · W2. -/
theorem W6_lin2 (c : Dev nD) :
    W6 m ρ c (Proc.devRef .tc main_v47)
      = Cert.ReferenceIdeal.ReadP.val_main_v50 (F := Ideal) (x0 m c) (x1 m c) (x2 m c) (x3 m c) (x4 m c) := by
  refine (W6_arr m ρ c 3).trans ((Cert.KernelIdeal.Region1.value (V5 m ρ) c).trans ?_)
  unfold Cert.KernelIdeal.Region1.whole Cert.KernelIdeal.Region1.hidden
  dsimp only [V5]
  rw [W5_agg1 m ρ c, W5_bias m ρ c, W5_arg4 m ρ c]
  rfl

/-- THE RESULT: the second aggregate plus b2, the plain program's result as a function of the six inputs. -/
theorem W7_out (c : Dev nD) :
    W7 m ρ c (Proc.devRef .tc main_v63)
      = Cert.ReferenceIdeal.ReadP.val_main_v81 (F := Ideal) (x0 m c) (x1 m c) (x2 m c) (x3 m c) (x4 m c) (x5 m c) := by
  dsimp only [W7, hostOps2]
  read_fold
  rw [W6_lin2 m ρ c, W6_src m ρ c, W6_dst m ρ c, W6_coef m ρ c, W6_arg5 m ρ c, ← coef_again]
  rfl

/-- The kernel's program runs, ends with its result buffer at the plain program's result of the inputs, and leaves
    the inputs as launched. -/
theorem run : θ_run defs (onTc (τ := τ) (main (F := Ideal))) ⟨m, fun _ => 0, ρ⟩ (fun r => ∀ c : Dev nD,
      r.2.mem ((c.tc : Thread nD τ).loc main_v63)
        = Cert.ReferenceIdeal.ReadP.val_main_v81 (F := Ideal) (x0 m c) (x1 m c) (x2 m c) (x3 m c) (x4 m c) (x5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W7_out m ρ c), (h c).2⟩)
    (Cert.KernelIdeal.RunValue.run_value m ρ)

end Cert.KernelIdeal.Fold

end
-- ==== Proof.lean ====
/-
  A two-layer graph convolution: the kernel's program against the plain one, over the extended reals.

  Both programs extend the edge list by self-loops, weigh every edge by the inverse square roots of its ends' degrees,
  and compute  out = A · (relu(A · (x · W1) + b1) · W2) + b2,  where A · h gathers the rows of h along the edges, scales
  them by the edge weights and adds them up per destination node. They differ only in the two matrix products: the
  kernel's program computes each in a pallas_call that walks the 100000 rows in 20 tiles of 5000 (operands narrowed to
  bf16, the second call adding the bias row and cutting off at zero before it multiplies), the plain program in one
  dot_general. Over the extended reals narrowing is the identity and both products are the textbook sum over the
  contracted index, so each call's output array is the whole product (Proof/Region0Value.lean, Proof/Region1Value.lean);
  the host operations around the calls are the plain program's own, operation for operation (Proof/FoldHost.lean,
  Proof/FoldValue.lean). No law is used that could fail at an infinity, so the precondition is never opened.

  The three frames: the two kernels' are the generated frame certificates; the plain program's is its run with the
  result dropped. The idealization rewrote nothing, so `preserves` has nothing to state.
-/
import proofs.«106686_j37847251813253_1_alg».proof.Defs
import proofs.«106686_j37847251813253_1_alg».proof.Proof.Gen.Kernel
import proofs.«106686_j37847251813253_1_alg».proof.Proof.Gen.Kernel.Frame
import proofs.«106686_j37847251813253_1_alg».proof.Proof.Gen.KernelIdeal
import proofs.«106686_j37847251813253_1_alg».proof.Proof.Gen.KernelIdeal.Frame
import proofs.«106686_j37847251813253_1_alg».proof.Proof.Gen.ReferenceIdeal
import proofs.«106686_j37847251813253_1_alg».proof.Proof.Gen.Pre_finite_inputs
import proofs.«106686_j37847251813253_1_alg».proof.Proof.RefRunP
import proofs.«106686_j37847251813253_1_alg».proof.Proof.RefReadP
import proofs.«106686_j37847251813253_1_alg».proof.Proof.FoldValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The plain program's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the six inputs both programs end with their result buffers at ONE function of the
    inputs: the plain program's result term, which the kernel's program reaches through its two pallas_calls. -/
theorem algebraic : Cert.algebraic_KernelIdeal_ReferenceIdeal := by
  intro m ρ m' ρ' _ hagree
  refine ⟨_, Cert.KernelIdeal.Fold.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v81_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
